-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S2000x64 : Shape := ⟨2, ![2000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S2000x1 : Shape := ⟨2, ![2000, 1]⟩

abbrev nBuf : Space → Nat
  | .hbm => 81
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x1, .f32⟩
  | .hbm, ⟨71, _⟩ => ⟨S1700000x64, .f32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S1x1, .f32⟩
  | .hbm, ⟨80, _⟩ => ⟨S100000x1, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x1, .f32⟩
  | .local _ .vmem, ⟨23, _⟩ => ⟨S1x1, .f32⟩
  | .local _ .vmem, ⟨24, _⟩ => ⟨S2000x1, .f32⟩
  | .local _ .vmem, ⟨25, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x64_S64x64_S2000x64_1_0_0_1_n_n_wf : DotDims.WF S2000x64 S64x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S100000x1.size a
  hwx4_3 : ∀ i : grid4.Coords, EltTy.bits .f32 = 32 ∨ (Rect.block (s := S100000x1) S2000x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S2000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000, .i32⟩
  | .hbm, ⟨65, _⟩ => ⟨S1700000, .i32⟩
  | .hbm, ⟨66, _⟩ => ⟨S1700000, .i32⟩
  | .hbm, ⟨67, _⟩ => ⟨S_, .f32⟩
  | .hbm, ⟨68, _⟩ => ⟨S1700000, .f32⟩
  | .hbm, ⟨69, _⟩ => ⟨S_, .f32⟩
  | .hbm, ⟨70, _⟩ => ⟨S100000, .f32⟩
  | .hbm, ⟨71, _⟩ => ⟨S1700000x1, .i32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S1700000, .f32⟩
  | .hbm, ⟨93, _⟩ => ⟨S100000x64, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x64, .f32⟩
  | .hbm, ⟨103, _⟩ => ⟨S1700000x1, .f32⟩
  | .hbm, ⟨104, _⟩ => ⟨S1700000x64, .f32⟩
  | .hbm, ⟨105, _⟩ => ⟨S1700000x64, .f32⟩
  | .hbm, ⟨106, _⟩ => ⟨S_, .f32⟩
  | .hbm, ⟨107, _⟩ => ⟨S100000x64, .f32⟩
  | .hbm, ⟨108, _⟩ => ⟨S1700000x1, .i32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | .hbm, ⟨120, _⟩ => ⟨S100000x1, .f32⟩
  | .hbm, ⟨121, _⟩ => ⟨S100000x1, .f32⟩
  | .hbm, ⟨122, _⟩ => ⟨S_, .f32⟩
  | .hbm, ⟨123, _⟩ => ⟨S100000x1, .f32⟩
  | .hbm, ⟨124, _⟩ => ⟨S100000x1, .f32⟩
  | .hbm, ⟨125, _⟩ => ⟨S_, .f32⟩
  | .hbm, ⟨126, _⟩ => ⟨S100000x1, .f32⟩
  | .hbm, ⟨127, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_cst_17 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«153258_j19490561589475_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.KernSpec.lean ====
/- The kernel program's result as a composition of named stages: the graph's normalisation (host operations on the
   edge list), one layer (the matrix product, the aggregation over the edges by host operations, then bias and clamp
   entry by entry), and the head (the product with one column, the bias, the logistic function). -/
import proofs.«153258_j19490561589475_1_alg».proof.Proof.Gen.KernelIdeal
import proofs.«153258_j19490561589475_1_alg».proof.Proof.LibMatProd
import Idealize.ShloMosaic.Lib.ValueIdx
import Idealize.ShloMosaic.PureOps.Ideal

set_option maxRecDepth 16384

noncomputable section

namespace Cert.KernelIdeal.Spec

open Cert.KernelIdeal Cert.KernelIdeal.Gen Idealize.ShloMosaic Idealize.ShloMosaic.TcCoe Idealize.ShloMosaic.ValueIdx Idealize.SL.Sem Cert.MatProd

section Graph

variable {F : FTy → Type} [FloatOps F]

/-- The source node of every edge, followed by every node once (its self loop). -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination node of every edge, followed by every node once (its self loop). -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number as an index: a negative one counts from the end. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- One over the square root of a node's degree: the number of edges (and its self loop) that end at it. -/
def dinv (e : (⟨S2x1600000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant (F := F) S_ .f32 0x00000000#32)) (broadcastInDim S1700000x1 ![0] bcast_S1700000_S1700000x1_0 (dst e)) (broadcastInDim S1700000 ![] bcast_S_S1700000 (constant (F := F) S_ .f32 0x3F800000#32)))

/-- An edge's weight: the product of that number at its two ends. -/
def norm (e : (⟨S2x1600000, .i32⟩ : BufTy).Contents (Elt F)) : (⟨S1700000, .f32⟩ : BufTy).Contents (Elt F) :=
  mulf (Host.gather gather_S100000_S1700000x1_S1700000_n_0_n_n_0_1_1 (dinv e) (broadcastInDim S1700000x1 ![0] bcast_S1700000_S1700000x1_0 (wrap (src e)))) (Host.gather gather_S100000_S1700000x1_S1700000_n_0_n_n_0_1_1 (dinv e) (broadcastInDim S1700000x1 ![0] bcast_S1700000_S1700000x1_0 (wrap (dst e))))

/-- The aggregation: every node's row is the sum, over the edges ending at it, of the source node's row times the
    edge's weight. -/
def agg (e : (⟨S2x1600000, .i32⟩ : BufTy).Contents (Elt F)) (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 (dst e)) (mulf (Host.gather gather_S100000x64_S1700000x1_S1700000x64_1_0_n_n_0_1_164 h (broadcastInDim S1700000x1 ![0] bcast_S1700000_S1700000x1_0 (wrap (src e)))) (broadcastInDim S1700000x64 ![0, 1] bcast_S1700000x1_S1700000x64_0_1 (broadcastInDim S1700000x1 ![0] bcast_S1700000_S1700000x1_0 (norm e))))

end Graph

/-- The bias row added to every row, then the negative part cut off, entry by entry. -/
def biasRelu (a : FVec Ideal S100000x64 .f32) (b : FVec Ideal S1x64 .f32) : FVec Ideal S100000x64 .f32 :=
  fun i => max (a i + b (ix2 (0 : Fin 1) (i 1))) (Ideal.ofBits .f32 0x00000000#32)

/-- The score of every node: its row times the one weight column, plus the bias, through the logistic function. -/
def score (h : FVec Ideal S100000x64 .f32) (w : FVec Ideal S64x1 .f32) (b : FVec Ideal S1x1 .f32) : FVec Ideal S100000x1 .f32 :=
  fun i => Ideal.logistic (matProd h w i + b (ix2 (0 : Fin 1) (0 : Fin 1)))

/-- One layer. -/
def layer (e : (⟨S2x1600000, .i32⟩ : BufTy).Contents (Elt Ideal)) (x : FVec Ideal S100000x64 .f32) (W : FVec Ideal S64x64 .f32)
    (b : FVec Ideal S64 .f32) : FVec Ideal S100000x64 .f32 :=
  biasRelu (agg (F := Ideal) e (matProd x W)) (shapeCast S1x64 b shapeCasts_S64_S1x64)

/-- The whole network. -/
def out (e : (⟨S2x1600000, .i32⟩ : BufTy).Contents (Elt Ideal)) (x : FVec Ideal S100000x64 .f32) (W1 : FVec Ideal S64x64 .f32)
    (b1 : FVec Ideal S64 .f32) (W2 : FVec Ideal S64x64 .f32) (b2 : FVec Ideal S64 .f32) (Wfc : FVec Ideal S64x1 .f32)
    (bfc : FVec Ideal S1 .f32) : FVec Ideal S100000x1 .f32 :=
  score (layer e (layer e x W1 b1) W2 b2) Wfc (shapeCast S1x1 bfc shapeCasts_S1_S1x1)

end Cert.KernelIdeal.Spec

end
-- ==== Proof.ProjValue0.lean ====
/- The projection kernel, launch 0: the array it leaves is the matrix product of its two operand arrays as the
   launch finds them. Each grid point multiplies a block of 2000 rows by the whole 64 x 64 weight; a row block of a
   product is the product of the row block, and the fifty row blocks tile the 100000 rows. -/
import proofs.«153258_j19490561589475_1_alg».proof.Proof.Gen.KernelIdeal.Frame
import proofs.«153258_j19490561589475_1_alg».proof.Proof.LibMatProd
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Proj0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.MatProd

variable (V : (c : Dev nD) → (b : Ref sig .tc) → Buf (Elt Ideal) ((c : Thread nD τ).loc b))

theorem hz : (![0, 0] : Fin 2 → Nat) = fun _ => 0 := funext fun a => by fin_cases a <;> rfl

/-- The body's stored value: with the narrowing to bf16 the identity on the extended reals, the product of the two
    loaded blocks into a zero accumulator. -/
theorem pay_eq (x0 : Vec Ideal S2000x64 .f32) (x1 : Vec Ideal S64x64 .f32) :
    k0_pay1 (F := Ideal) x0 x1 = matProd x0 x1 := by
  unfold k0_pay1
  exact matmulZero_eq dot_S2000x64_S64x64_S2000x64_1_0_0_1_n_n.wf none x0 x1

/-- The printed index maps over the fifty points: the row operand and the result move one block of rows per point,
    the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row operand's block at a point, read at a row of the block and a column. -/
theorem lhs_read (c : Dev nD) (t : Fin cfg0.N) (r : Fin 2000) (k : Fin 64) (h : t.val * 2000 + r.val < 100000) :
    iblk0 V c 0 t (ix2 r k) = V c main_arg0 (ix2 ⟨t.val * 2000 + r.val, h⟩ k) := by
  obtain ⟨e0, e1, -, -, -, -⟩ := idx_facts t
  show V c main_arg0 (((cfg0.win 0).blk t).view.emb (ix2 r k)) = V c main_arg0 _
  congr 1
  funext a; apply Fin.ext
  match a with
  | ⟨0, _⟩ => show win0_0.index t (0 : Fin 2) * 2000 + 1 * r.val = t.val * 2000 + r.val; omega
  | ⟨1, _⟩ => show win0_0.index t (1 : Fin 2) * 64 + 1 * k.val = k.val; omega

/-- The weight's block at a point is the whole weight. -/
theorem rhs_read (c : Dev nD) (t : Fin cfg0.N) (k : Fin 64) (q : Fin 64) :
    iblk0 V c 1 t (ix2 k q) = V c main_arg2 (ix2 k q) := by
  obtain ⟨-, -, e2, e3, -, -⟩ := idx_facts t
  show V c main_arg2 (((cfg0.win 1).blk t).view.emb (ix2 k q)) = V c main_arg2 _
  congr 1
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-- What a point writes back is its block of the product of the whole arrays. -/
theorem flushed_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x64) hz]
  rw [pay_eq]
  obtain ⟨-, -, -, -, e4, e5⟩ := idx_facts t
  funext j
  obtain ⟨r, q, rfl⟩ : ∃ (r : Fin 2000) (q : Fin 64), j = ix2 r q := ⟨j 0, j 1, eq_ix2 j⟩
  have ht : t.val < 50 := t.isLt
  have hr : t.val * 2000 + r.val < 100000 := by have := r.isLt; omega
  have hemb : ((cfg0.win 2).blk t).view.emb (ix2 r q) = ix2 (⟨t.val * 2000 + r.val, hr⟩ : Fin 100000) q := by
    funext a; apply Fin.ext
    match a with
    | ⟨0, _⟩ => show win0_2.index t (0 : Fin 2) * 2000 + 1 * r.val = t.val * 2000 + r.val; omega
    | ⟨1, _⟩ => show win0_2.index t (1 : Fin 2) * 64 + 1 * q.val = q.val; omega
  show matProd (iblk0 V c 0 t) (iblk0 V c 1 t) (ix2 r q)
      = matProd (V c main_arg0) (V c main_arg2) (((cfg0.win 2).blk t).view.emb (ix2 r q))
  rw [hemb, matProd_ix2, matProd_ix2]
  refine Finset.sum_congr rfl fun k _ => ?_
  rw [lhs_read V c t r k hr, rhs_read V c t k q]

/-- An index of the array lies in a point's block iff its row lies in that block of rows. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v27).slice (win0_2.rect t)).set ↔ _
  rw [View.set_slice_whole, Rect.mem_set_unit]
  exact Iff.rfl

/-- Every index is in the block of the point its row's block of 2000 names. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 2000, by show _ < 50; omega⟩, flush0_2 _, ?_⟩
  rw [mem_blk]
  obtain ⟨-, -, -, -, e4, e5⟩ := idx_facts ⟨(i 0).val / 2000, by show _ < 50; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ _ ∧ _ < (i 0).val / 2000 * 2000 + 2000; omega
  | ⟨1, _⟩ => show win0_2.index _ (1 : Fin 2) * 64 ≤ (i 1).val ∧ (i 1).val < win0_2.index _ (1 : Fin 2) * 64 + 64; rw [e5]; omega

/-- The array after the launch is the product of the operand arrays as the launch found them. -/
theorem final (c : Dev nD) : (dat0 V c).arrAt 2 cfg0.N = matProd (V c main_arg0) (V c main_arg2) :=
  (dat0 V c).arrAt_eq_of_cover 2 _ (fun t _ => flushed_eq V c t) cover

end Cert.KernelIdeal.Proj0

end
-- ==== Proof.ProjValue2.lean ====
/- The projection kernel, launch 2: the array it leaves is the matrix product of its two operand arrays as the
   launch finds them. Each grid point multiplies a block of 2000 rows by the whole 64 x 64 weight; a row block of a
   product is the product of the row block, and the fifty row blocks tile the 100000 rows. -/
import proofs.«153258_j19490561589475_1_alg».proof.Proof.Gen.KernelIdeal.Frame
import proofs.«153258_j19490561589475_1_alg».proof.Proof.LibMatProd
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Proj2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.MatProd

variable (V : (c : Dev nD) → (b : Ref sig .tc) → Buf (Elt Ideal) ((c : Thread nD τ).loc b))

theorem hz : (![0, 0] : Fin 2 → Nat) = fun _ => 0 := funext fun a => by fin_cases a <;> rfl

/-- The body's stored value: with the narrowing to bf16 the identity on the extended reals, the product of the two
    loaded blocks into a zero accumulator. -/
theorem pay_eq (x0 : Vec Ideal S2000x64 .f32) (x1 : Vec Ideal S64x64 .f32) :
    k2_pay1 (F := Ideal) x0 x1 = matProd x0 x1 := by
  unfold k2_pay1
  rw [shapeCast_self]
  exact matmulZero_eq dot_S2000x64_S64x64_S2000x64_1_0_0_1_n_n.wf none x0 x1

/-- The printed index maps over the fifty points: the row operand and the result move one block of rows per point,
    the weight stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row operand's block at a point, read at a row of the block and a column. -/
theorem lhs_read (c : Dev nD) (t : Fin cfg2.N) (r : Fin 2000) (k : Fin 64) (h : t.val * 2000 + r.val < 100000) :
    iblk2 V c 0 t (ix2 r k) = V c main_v42 (ix2 ⟨t.val * 2000 + r.val, h⟩ k) := by
  obtain ⟨e0, e1, -, -, -, -⟩ := idx_facts t
  show V c main_v42 (((cfg2.win 0).blk t).view.emb (ix2 r k)) = V c main_v42 _
  congr 1
  funext a; apply Fin.ext
  match a with
  | ⟨0, _⟩ => show win2_0.index t (0 : Fin 2) * 2000 + 1 * r.val = t.val * 2000 + r.val; omega
  | ⟨1, _⟩ => show win2_0.index t (1 : Fin 2) * 64 + 1 * k.val = k.val; omega

/-- The weight's block at a point is the whole weight. -/
theorem rhs_read (c : Dev nD) (t : Fin cfg2.N) (k : Fin 64) (q : Fin 64) :
    iblk2 V c 1 t (ix2 k q) = V c main_arg4 (ix2 k q) := by
  obtain ⟨-, -, e2, e3, -, -⟩ := idx_facts t
  show V c main_arg4 (((cfg2.win 1).blk t).view.emb (ix2 k q)) = V c main_arg4 _
  congr 1
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- What a point writes back is its block of the product of the whole arrays. -/
theorem flushed_eq (c : Dev nD) (t : Fin cfg2.N) :
    (dat2 V c).flushed 2 t = ((cfg2.win 2).blk t).view.read (Elt Ideal) (matProd (V c main_v42) (V c main_arg4)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  rw [pay_eq]
  obtain ⟨-, -, -, -, e4, e5⟩ := idx_facts t
  funext j
  obtain ⟨r, q, rfl⟩ : ∃ (r : Fin 2000) (q : Fin 64), j = ix2 r q := ⟨j 0, j 1, eq_ix2 j⟩
  have ht : t.val < 50 := t.isLt
  have hr : t.val * 2000 + r.val < 100000 := by have := r.isLt; omega
  have hemb : ((cfg2.win 2).blk t).view.emb (ix2 r q) = ix2 (⟨t.val * 2000 + r.val, hr⟩ : Fin 100000) q := by
    funext a; apply Fin.ext
    match a with
    | ⟨0, _⟩ => show win2_2.index t (0 : Fin 2) * 2000 + 1 * r.val = t.val * 2000 + r.val; omega
    | ⟨1, _⟩ => show win2_2.index t (1 : Fin 2) * 64 + 1 * q.val = q.val; omega
  show matProd (iblk2 V c 0 t) (iblk2 V c 1 t) (ix2 r q)
      = matProd (V c main_v42) (V c main_arg4) (((cfg2.win 2).blk t).view.emb (ix2 r q))
  rw [hemb, matProd_ix2, matProd_ix2]
  refine Finset.sum_congr rfl fun k _ => ?_
  rw [lhs_read V c t r k hr, rhs_read V c t k q]

/-- An index of the array lies in a point's block iff its row lies in that block of rows. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v43).slice (win2_2.rect t)).set ↔ _
  rw [View.set_slice_whole, Rect.mem_set_unit]
  exact Iff.rfl

/-- Every index is in the block of the point its row's block of 2000 names. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 2000, by show _ < 50; omega⟩, flush2_2 _, ?_⟩
  rw [mem_blk]
  obtain ⟨-, -, -, -, e4, e5⟩ := idx_facts ⟨(i 0).val / 2000, by show _ < 50; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ _ ∧ _ < (i 0).val / 2000 * 2000 + 2000; omega
  | ⟨1, _⟩ => show win2_2.index _ (1 : Fin 2) * 64 ≤ (i 1).val ∧ (i 1).val < win2_2.index _ (1 : Fin 2) * 64 + 64; rw [e5]; omega

/-- The array after the launch is the product of the operand arrays as the launch found them. -/
theorem final (c : Dev nD) : (dat2 V c).arrAt 2 cfg2.N = matProd (V c main_v42) (V c main_arg4) :=
  (dat2 V c).arrAt_eq_of_cover 2 _ (fun t _ => flushed_eq V c t) cover

end Cert.KernelIdeal.Proj2

end
-- ==== Proof.ActValue1.lean ====
/- The bias and clamp kernel, launch 1: the array it leaves is, entry by entry, the larger of zero and the entry of
   its first operand plus the bias row's entry in that column. Each grid point treats a block of 2000 rows with the
   whole bias row, and the fifty row blocks tile the 100000 rows. -/
import proofs.«153258_j19490561589475_1_alg».proof.Proof.Gen.KernelIdeal.Frame
import proofs.«153258_j19490561589475_1_alg».proof.Proof.LibMatProd
import Idealize.ShloMosaic.Lib.Pipeline.Value
import Idealize.ShloMosaic.Lib.ValueIdx
import Idealize.ShloMosaic.Lib.ValueLayout
import proofs.«153258_j19490561589475_1_alg».proof.Proof.KernSpec
set_option maxRecDepth 16384

noncomputable section

open scoped BigOperators

namespace Cert.KernelIdeal.Act1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.MatProd

variable (V : (c : Dev nD) → (b : Ref sig .tc) → Buf (Elt Ideal) ((c : Thread nD τ).loc b))

open Cert.KernelIdeal.Spec

theorem hz : (![0, 0] : Fin 2 → Nat) = fun _ => 0 := funext fun a => by fin_cases a <;> rfl

/-- The body's stored value at a row of the block and a column: the casts to the same shape change nothing, the
    bias row is repeated over the rows. -/
theorem pay_apply (x0 : Vec Ideal S2000x64 .f32) (x1 : Vec Ideal S1x64 .f32) (r : Fin 2000) (q : Fin 64) :
    k1_pay1 (F := Ideal) x0 x1 (ix2 r q) = max (x0 (ix2 r q) + x1 (ix2 (0 : Fin 1) q)) (Ideal.ofBits .f32 0x00000000#32) := by
  unfold k1_pay1
  show max ((shapeCast S2000x64 x0 shapeCasts_S2000x64_S2000x64) (ix2 r q)
      + (broadcastTo S2000x64 (shapeCast S1x64 x1 shapeCasts_S1x64_S1x64) broadcasts_S1x64_S2000x64) (ix2 r q)) _ = _
  rw [shapeCast_self, shapeCast_self, broadcastTo_1b_ab_apply]
  rfl

/-- The printed index maps over the fifty points: the first operand and the result move one block of rows per point,
    the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first operand's block at a point, read at a row of the block and a column. -/
theorem lhs_read (c : Dev nD) (t : Fin cfg1.N) (r : Fin 2000) (k : Fin 64) (h : t.val * 2000 + r.val < 100000) :
    iblk1 V c 0 t (ix2 r k) = V c main_v40 (ix2 ⟨t.val * 2000 + r.val, h⟩ k) := by
  obtain ⟨e0, e1, -, -, -, -⟩ := idx_facts t
  show V c main_v40 (((cfg1.win 0).blk t).view.emb (ix2 r k)) = V c main_v40 _
  congr 1
  funext a; apply Fin.ext
  match a with
  | ⟨0, _⟩ => show win1_0.index t (0 : Fin 2) * 2000 + 1 * r.val = t.val * 2000 + r.val; omega
  | ⟨1, _⟩ => show win1_0.index t (1 : Fin 2) * 64 + 1 * k.val = k.val; omega

/-- The bias row's block at a point is the whole row. -/
theorem rhs_read (c : Dev nD) (t : Fin cfg1.N) (u : Fin 1) (q : Fin 64) :
    iblk1 V c 1 t (ix2 u q) = V c main_v41 (ix2 u q) := by
  obtain ⟨-, -, e2, e3, -, -⟩ := idx_facts t
  show V c main_v41 (((cfg1.win 1).blk t).view.emb (ix2 u q)) = V c main_v41 _
  congr 1
  funext a; apply Fin.ext
  match a with
  | ⟨0, _⟩ => show win1_1.index t (0 : Fin 2) * 1 + 1 * u.val = u.val; omega
  | ⟨1, _⟩ => show win1_1.index t (1 : Fin 2) * 64 + 1 * q.val = q.val; omega

/-- What a point writes back is its block of the bias-and-clamp of the whole arrays. -/
theorem flushed_eq (c : Dev nD) (t : Fin cfg1.N) :
    (dat1 V c).flushed 2 t = ((cfg1.win 2).blk t).view.read (Elt Ideal) (biasRelu (V c main_v40) (V c main_v41)) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  obtain ⟨-, -, -, -, e4, e5⟩ := idx_facts t
  funext j
  obtain ⟨r, q, rfl⟩ : ∃ (r : Fin 2000) (q : Fin 64), j = ix2 r q := ⟨j 0, j 1, eq_ix2 j⟩
  have ht : t.val < 50 := t.isLt
  have hr : t.val * 2000 + r.val < 100000 := by have := r.isLt; omega
  have hemb : ((cfg1.win 2).blk t).view.emb (ix2 r q) = ix2 (⟨t.val * 2000 + r.val, hr⟩ : Fin 100000) q := by
    funext a; apply Fin.ext
    match a with
    | ⟨0, _⟩ => show win1_2.index t (0 : Fin 2) * 2000 + 1 * r.val = t.val * 2000 + r.val; omega
    | ⟨1, _⟩ => show win1_2.index t (1 : Fin 2) * 64 + 1 * q.val = q.val; omega
  show k1_pay1 (F := Ideal) (iblk1 V c 0 t) (iblk1 V c 1 t) (ix2 r q)
      = biasRelu (V c main_v40) (V c main_v41) (((cfg1.win 2).blk t).view.emb (ix2 r q))
  rw [hemb, pay_apply, lhs_read V c t r q hr, rhs_read V c t 0 q]
  rfl

/-- An index of the array lies in a point's block iff its row lies in that block of rows. -/
theorem mem_blk (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v42).slice (win1_2.rect t)).set ↔ _
  rw [View.set_slice_whole, Rect.mem_set_unit]
  exact Iff.rfl

/-- Every index is in the block of the point its row's block of 2000 names. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  refine ⟨⟨(i 0).val / 2000, by show _ < 50; omega⟩, flush1_2 _, ?_⟩
  rw [mem_blk]
  obtain ⟨-, -, -, -, e4, e5⟩ := idx_facts ⟨(i 0).val / 2000, by show _ < 50; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ _ ∧ _ < (i 0).val / 2000 * 2000 + 2000; omega
  | ⟨1, _⟩ => show win1_2.index _ (1 : Fin 2) * 64 ≤ (i 1).val ∧ (i 1).val < win1_2.index _ (1 : Fin 2) * 64 + 64; rw [e5]; omega

/-- The array after the launch is the bias-and-clamp of the operand arrays as the launch found them. -/
theorem final (c : Dev nD) : (dat1 V c).arrAt 2 cfg1.N = biasRelu (V c main_v40) (V c main_v41) :=
  (dat1 V c).arrAt_eq_of_cover 2 _ (fun t _ => flushed_eq V c t) cover

end Cert.KernelIdeal.Act1

end
-- ==== Proof.ActValue3.lean ====
/- The bias and clamp kernel, launch 3: the array it leaves is, entry by entry, the larger of zero and the entry of
   its first operand plus the bias row's entry in that column. Each grid point treats a block of 2000 rows with the
   whole bias row, and the fifty row blocks tile the 100000 rows. -/
import proofs.«153258_j19490561589475_1_alg».proof.Proof.Gen.KernelIdeal.Frame
import proofs.«153258_j19490561589475_1_alg».proof.Proof.LibMatProd
import Idealize.ShloMosaic.Lib.Pipeline.Value
import Idealize.ShloMosaic.Lib.ValueIdx
import Idealize.ShloMosaic.Lib.ValueLayout
import proofs.«153258_j19490561589475_1_alg».proof.Proof.KernSpec
set_option maxRecDepth 16384

noncomputable section

open scoped BigOperators

namespace Cert.KernelIdeal.Act3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.MatProd

variable (V : (c : Dev nD) → (b : Ref sig .tc) → Buf (Elt Ideal) ((c : Thread nD τ).loc b))

open Cert.KernelIdeal.Spec

theorem hz : (![0, 0] : Fin 2 → Nat) = fun _ => 0 := funext fun a => by fin_cases a <;> rfl

/-- The body's stored value at a row of the block and a column: the casts to the same shape change nothing, the
    bias row is repeated over the rows. -/
theorem pay_apply (x0 : Vec Ideal S2000x64 .f32) (x1 : Vec Ideal S1x64 .f32) (r : Fin 2000) (q : Fin 64) :
    k3_pay1 (F := Ideal) x0 x1 (ix2 r q) = max (x0 (ix2 r q) + x1 (ix2 (0 : Fin 1) q)) (Ideal.ofBits .f32 0x00000000#32) := by
  unfold k3_pay1
  show max ((shapeCast S2000x64 x0 shapeCasts_S2000x64_S2000x64) (ix2 r q)
      + (broadcastTo S2000x64 (shapeCast S1x64 x1 shapeCasts_S1x64_S1x64) broadcasts_S1x64_S2000x64) (ix2 r q)) _ = _
  rw [shapeCast_self, shapeCast_self, broadcastTo_1b_ab_apply]
  rfl

/-- The printed index maps over the fifty points: the first operand and the result move one block of rows per point,
    the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first operand's block at a point, read at a row of the block and a column. -/
theorem lhs_read (c : Dev nD) (t : Fin cfg3.N) (r : Fin 2000) (k : Fin 64) (h : t.val * 2000 + r.val < 100000) :
    iblk3 V c 0 t (ix2 r k) = V c main_v56 (ix2 ⟨t.val * 2000 + r.val, h⟩ k) := by
  obtain ⟨e0, e1, -, -, -, -⟩ := idx_facts t
  show V c main_v56 (((cfg3.win 0).blk t).view.emb (ix2 r k)) = V c main_v56 _
  congr 1
  funext a; apply Fin.ext
  match a with
  | ⟨0, _⟩ => show win3_0.index t (0 : Fin 2) * 2000 + 1 * r.val = t.val * 2000 + r.val; omega
  | ⟨1, _⟩ => show win3_0.index t (1 : Fin 2) * 64 + 1 * k.val = k.val; omega

/-- The bias row's block at a point is the whole row. -/
theorem rhs_read (c : Dev nD) (t : Fin cfg3.N) (u : Fin 1) (q : Fin 64) :
    iblk3 V c 1 t (ix2 u q) = V c main_v57 (ix2 u q) := by
  obtain ⟨-, -, e2, e3, -, -⟩ := idx_facts t
  show V c main_v57 (((cfg3.win 1).blk t).view.emb (ix2 u q)) = V c main_v57 _
  congr 1
  funext a; apply Fin.ext
  match a with
  | ⟨0, _⟩ => show win3_1.index t (0 : Fin 2) * 1 + 1 * u.val = u.val; omega
  | ⟨1, _⟩ => show win3_1.index t (1 : Fin 2) * 64 + 1 * q.val = q.val; omega

/-- What a point writes back is its block of the bias-and-clamp of the whole arrays. -/
theorem flushed_eq (c : Dev nD) (t : Fin cfg3.N) :
    (dat3 V c).flushed 2 t = ((cfg3.win 2).blk t).view.read (Elt Ideal) (biasRelu (V c main_v56) (V c main_v57)) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  obtain ⟨-, -, -, -, e4, e5⟩ := idx_facts t
  funext j
  obtain ⟨r, q, rfl⟩ : ∃ (r : Fin 2000) (q : Fin 64), j = ix2 r q := ⟨j 0, j 1, eq_ix2 j⟩
  have ht : t.val < 50 := t.isLt
  have hr : t.val * 2000 + r.val < 100000 := by have := r.isLt; omega
  have hemb : ((cfg3.win 2).blk t).view.emb (ix2 r q) = ix2 (⟨t.val * 2000 + r.val, hr⟩ : Fin 100000) q := by
    funext a; apply Fin.ext
    match a with
    | ⟨0, _⟩ => show win3_2.index t (0 : Fin 2) * 2000 + 1 * r.val = t.val * 2000 + r.val; omega
    | ⟨1, _⟩ => show win3_2.index t (1 : Fin 2) * 64 + 1 * q.val = q.val; omega
  show k3_pay1 (F := Ideal) (iblk3 V c 0 t) (iblk3 V c 1 t) (ix2 r q)
      = biasRelu (V c main_v56) (V c main_v57) (((cfg3.win 2).blk t).view.emb (ix2 r q))
  rw [hemb, pay_apply, lhs_read V c t r q hr, rhs_read V c t 0 q]
  rfl

/-- An index of the array lies in a point's block iff its row lies in that block of rows. -/
theorem mem_blk (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v58).slice (win3_2.rect t)).set ↔ _
  rw [View.set_slice_whole, Rect.mem_set_unit]
  exact Iff.rfl

/-- Every index is in the block of the point its row's block of 2000 names. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  refine ⟨⟨(i 0).val / 2000, by show _ < 50; omega⟩, flush3_2 _, ?_⟩
  rw [mem_blk]
  obtain ⟨-, -, -, -, e4, e5⟩ := idx_facts ⟨(i 0).val / 2000, by show _ < 50; omega⟩
  intro a
  match a with
  | ⟨0, _⟩ => show win3_2.index _ (0 : Fin 2) * 2000 ≤ (i 0).val ∧ (i 0).val < win3_2.index _ (0 : Fin 2) * 2000 + 2000; rw [e4]; show (i 0).val / 2000 * 2000 ≤ _ ∧ _ < (i 0).val / 2000 * 2000 + 2000; omega
  | ⟨1, _⟩ => show win3_2.index _ (1 : Fin 2) * 64 ≤ (i 1).val ∧ (i 1).val < win3_2.index _ (1 : Fin 2) * 64 + 64; rw [e5]; omega

/-- The array after the launch is the bias-and-clamp of the operand arrays as the launch found them. -/
theorem final (c : Dev nD) : (dat3 V c).arrAt 2 cfg3.N = biasRelu (V c main_v56) (V c main_v57) :=
  (dat3 V c).arrAt_eq_of_cover 2 _ (fun t _ => flushed_eq V c t) cover

end Cert.KernelIdeal.Act3

end
-- ==== Proof.HeadValue4.lean ====
/- The head kernel, launch 4: the array it leaves holds, for every node, the logistic function of the node's row times
   the weight column plus the bias. Each grid point treats a block of 2000 rows with the whole weight column and the
   bias, and the fifty row blocks tile the 100000 rows. -/
import proofs.«153258_j19490561589475_1_alg».proof.Proof.Gen.KernelIdeal.Frame
import proofs.«153258_j19490561589475_1_alg».proof.Proof.LibMatProd
import Idealize.ShloMosaic.Lib.Pipeline.Value
import Idealize.ShloMosaic.Lib.ValueIdx
import Idealize.ShloMosaic.Lib.ValueLayout
import proofs.«153258_j19490561589475_1_alg».proof.Proof.KernSpec
set_option maxRecDepth 16384

noncomputable section

open scoped BigOperators

namespace Cert.KernelIdeal.Head4

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.MatProd

variable (V : (c : Dev nD) → (b : Ref sig .tc) → Buf (Elt Ideal) ((c : Thread nD τ).loc b))

open Cert.KernelIdeal.Spec

theorem hz : (![0, 0] : Fin 2 → Nat) = fun _ => 0 := funext fun a => by fin_cases a <;> rfl

/-- The body's stored value at a row of the block: the narrowing to bf16 and the casts to the same shape change
    nothing on the extended reals, the product goes into a zero accumulator, the one bias entry is repeated over the
    rows. -/
theorem pay_apply (x0 : Vec Ideal S2000x64 .f32) (x1 : Vec Ideal S64x1 .f32) (x2 : Vec Ideal S1x1 .f32) (r : Fin 2000) (q : Fin 1) :
    k4_pay1 (F := Ideal) x0 x1 x2 (ix2 r q) = Ideal.logistic (matProd x0 x1 (ix2 r q) + x2 (ix2 (0 : Fin 1) (0 : Fin 1))) := by
  unfold k4_pay1
  obtain rfl : q = 0 := Subsingleton.elim _ _
  show Ideal.logistic ((matmul dot_S2000x64_S64x1_S2000x1_1_0_0_1_n_n none (shapeCast S2000x64 x0 shapeCasts_S2000x64_S2000x64) x1 (constant (F := Ideal) S2000x1 .f32 0x00000000#32)) (ix2 r 0)
      + (broadcastTo S2000x1 (shapeCast S1x1 x2 shapeCasts_S1x1_S1x1) broadcasts_S1x1_S2000x1) (ix2 r 0)) = _
  rw [shapeCast_self, shapeCast_self, broadcastTo_1b_ab_apply]
  exact congrArg (fun v : FVec Ideal S2000x1 .f32 => Ideal.logistic (v (ix2 r 0) + x2 (ix2 (0 : Fin 1) (0 : Fin 1))))
    (matmulZero_eq dot_S2000x64_S64x1_S2000x1_1_0_0_1_n_n.wf none x0 x1)

/-- The printed index maps over the fifty points: the node rows and the result move one block of rows per point,
    the weight column and the bias stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The node rows' block at a point, read at a row of the block and a column. -/
theorem lhs_read (c : Dev nD) (t : Fin cfg4.N) (r : Fin 2000) (k : Fin 64) (h : t.val * 2000 + r.val < 100000) :
    iblk4 V c 0 t (ix2 r k) = V c main_v58 (ix2 ⟨t.val * 2000 + r.val, h⟩ k) := by
  obtain ⟨e0, e1, -, -, -, -, -, -⟩ := idx_facts t
  show V c main_v58 (((cfg4.win 0).blk t).view.emb (ix2 r k)) = V c main_v58 _
  congr 1
  funext a; apply Fin.ext
  match a with
  | ⟨0, _⟩ => show win4_0.index t (0 : Fin 2) * 2000 + 1 * r.val = t.val * 2000 + r.val; omega
  | ⟨1, _⟩ => show win4_0.index t (1 : Fin 2) * 64 + 1 * k.val = k.val; omega

/-- The weight column's block at a point is the whole column. -/
theorem rhs_read (c : Dev nD) (t : Fin cfg4.N) (k : Fin 64) (q : Fin 1) :
    iblk4 V c 1 t (ix2 k q) = V c main_arg6 (ix2 k q) := by
  obtain ⟨-, -, e2, e3, -, -, -, -⟩ := idx_facts t
  show V c main_arg6 (((cfg4.win 1).blk t).view.emb (ix2 k q)) = V c main_arg6 _
  congr 1
  funext a; apply Fin.ext
  match a with
  | ⟨0, _⟩ => show win4_1.index t (0 : Fin 2) * 64 + 1 * k.val = k.val; omega
  | ⟨1, _⟩ => show win4_1.index t (1 : Fin 2) * 1 + 1 * q.val = q.val; omega

/-- The bias's block at a point is the bias. -/
theorem bias_read (c : Dev nD) (t : Fin cfg4.N) (u : Fin 1) (q : Fin 1) :
    iblk4 V c 2 t (ix2 u q) = V c main_v59 (ix2 u q) := by
  obtain ⟨-, -, -, -, e4, e5, -, -⟩ := idx_facts t
  show V c main_v59 (((cfg4.win 2).blk t).view.emb (ix2 u q)) = V c main_v59 _
  congr 1
  funext a; apply Fin.ext
  match a with
  | ⟨0, _⟩ => show win4_2.index t (0 : Fin 2) * 1 + 1 * u.val = u.val; omega
  | ⟨1, _⟩ => show win4_2.index t (1 : Fin 2) * 1 + 1 * q.val = q.val; omega

/-- What a point writes back is its block of the scores of the whole arrays. -/
theorem flushed_eq (c : Dev nD) (t : Fin cfg4.N) :
    (dat4 V c).flushed 3 t = ((cfg4.win 3).blk t).view.read (Elt Ideal) (score (V c main_v58) (V c main_arg6) (V c main_v59)) := by
  show (cfg4.win 3).cut (grid4.coords t) ((dat4 V c).after 3 t) = _
  rw [after4_3]
  unfold out4_3
  rw [View.canon_unit_zero hz]
  simp only [View.ld_unit_zero (S := S2000x64) hz, View.ld_unit_zero (S := S64x1) hz, View.ld_unit_zero (S := S1x1) hz]
  obtain ⟨-, -, -, -, -, -, e6, e7⟩ := idx_facts t
  funext j
  obtain ⟨r, q, rfl⟩ : ∃ (r : Fin 2000) (q : Fin 1), j = ix2 r q := ⟨j 0, j 1, eq_ix2 j⟩
  have ht : t.val < 50 := t.isLt
  have hr : t.val * 2000 + r.val < 100000 := by have := r.isLt; omega
  have hemb : ((cfg4.win 3).blk t).view.emb (ix2 r q) = ix2 (⟨t.val * 2000 + r.val, hr⟩ : Fin 100000) q := by
    funext a; apply Fin.ext
    match a with
    | ⟨0, _⟩ => show win4_3.index t (0 : Fin 2) * 2000 + 1 * r.val = t.val * 2000 + r.val; omega
    | ⟨1, _⟩ => show win4_3.index t (1 : Fin 2) * 1 + 1 * q.val = q.val; omega
  show k4_pay1 (F := Ideal) (iblk4 V c 0 t) (iblk4 V c 1 t) (iblk4 V c 2 t) (ix2 r q)
      = score (V c main_v58) (V c main_arg6) (V c main_v59) (((cfg4.win 3).blk t).view.emb (ix2 r q))
  rw [hemb, pay_apply, bias_read V c t 0 0]
  show Ideal.logistic (matProd (iblk4 V c 0 t) (iblk4 V c 1 t) (ix2 r q) + _) = Ideal.logistic (matProd (V c main_v58) (V c main_arg6) (ix2 _ q) + _)
  rw [matProd_ix2, matProd_ix2]
  congr 2
  refine Finset.sum_congr rfl fun k _ => ?_
  rw [lhs_read V c t r k hr, rhs_read V c t k q]

/-- An index of the array lies in a point's block iff its row lies in that block of rows. -/
theorem mem_blk (t : Fin cfg4.N) (i : S100000x1.Idx) :
    i ∈ ((cfg4.win 3).blk t).view.set ↔ ∀ a : Fin 2, win4_3.index t a * S2000x1.size a ≤ (i a).val ∧ (i a).val < win4_3.index t a * S2000x1.size a + S2000x1.size a := by
  show i ∈ ((View.whole main_v60).slice (win4_3.rect t)).set ↔ _
  rw [View.set_slice_whole, Rect.mem_set_unit]
  exact Iff.rfl

/-- Every index is in the block of the point its row's block of 2000 names. -/
theorem cover (i : S100000x1.Idx) : ∃ t : Fin cfg4.N, (cfg4.win 3).flush t = true ∧ i ∈ ((cfg4.win 3).blk t).view.set := by
  have hi0 : (i 0).val < 100000 := (i 0).isLt
  have hi1 : (i 1).val < 1 := (i 1).isLt
  refine ⟨⟨(i 0).val / 2000, by show _ < 50; omega⟩, flush4_3 _, ?_⟩
  rw [mem_blk]
  obtain ⟨-, -, -, -, -, -, e6, e7⟩ := idx_facts ⟨(i 0).val / 2000, by show _ < 50; omega⟩
  intro a
  match a with
  | ⟨0, _⟩ => show win4_3.index _ (0 : Fin 2) * 2000 ≤ (i 0).val ∧ (i 0).val < win4_3.index _ (0 : Fin 2) * 2000 + 2000; rw [e6]; show (i 0).val / 2000 * 2000 ≤ _ ∧ _ < (i 0).val / 2000 * 2000 + 2000; omega
  | ⟨1, _⟩ => show win4_3.index _ (1 : Fin 2) * 1 ≤ (i 1).val ∧ (i 1).val < win4_3.index _ (1 : Fin 2) * 1 + 1; rw [e7]; omega

/-- The array after the launch is the scores of the operand arrays as the launch found them. -/
theorem final (c : Dev nD) : (dat4 V c).arrAt 3 cfg4.N = score (V c main_v58) (V c main_arg6) (V c main_v59) :=
  (dat4 V c).arrAt_eq_of_cover 3 _ (fun t _ => flushed_eq V c t) cover

end Cert.KernelIdeal.Head4

end
-- ==== Proof.KernelValue.lean ====
/- The kernel program's result buffer at the end of the run, as the network's value of the arguments. The run's
   boundaries are walked in order: what the host operations on the edge list compute is carried unchanged past every
   later launch and host stretch that does not write it; each launch leaves its stage of the network applied to the
   contents it found; each host stretch aggregates over the edges or reshapes a bias. -/
import proofs.«153258_j19490561589475_1_alg».proof.Proof.Gen.KernelIdeal.Frame
import proofs.«153258_j19490561589475_1_alg».proof.Proof.KernSpec
import proofs.«153258_j19490561589475_1_alg».proof.Proof.ProjValue0
import proofs.«153258_j19490561589475_1_alg».proof.Proof.ProjValue2
import proofs.«153258_j19490561589475_1_alg».proof.Proof.ActValue1
import proofs.«153258_j19490561589475_1_alg».proof.Proof.ActValue3
import proofs.«153258_j19490561589475_1_alg».proof.Proof.HeadValue4
import Idealize.ShloMosaic.Lib.StableHlo.Run

set_option maxRecDepth 16384

noncomputable section

namespace Cert.KernelIdeal.Chain

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Spec Cert.MatProd

variable (m : (ℓ : Loc nD τ sig) → Buf (Elt Ideal) ℓ) (ρ : Dev nD → PrngReg)

/-- A buffer that no operation of a host stretch writes holds after the stretch what it held before. -/
macro "host_keeps" : tactic => `(tactic| (
  refine StableHlo.after_of_forall_not_mem _ _ (List.forall_iff_forall_mem.mp ?_)
  simp only [hostOps0, hostOps1, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## What is carried: the graph's three arrays and the arguments, at every boundary up to their last reader -/

theorem W1_v5 (c : Dev nD) : W1 m ρ c (Proc.devRef .tc main_v5) = src (m ((c.tc : Thread nD τ).loc main_arg1)) := by
  dsimp only [W1, hostOps0]
  after_results
  rfl
theorem W2_v5 (c : Dev nD) : W2 m ρ c (Proc.devRef .tc main_v5) = src (m ((c.tc : Thread nD τ).loc main_arg1)) := (W2_of_ne m ρ c main_v5 (by decide)).trans (W1_v5 m ρ c)
theorem W3_v5 (c : Dev nD) : W3 m ρ c (Proc.devRef .tc main_v5) = src (m ((c.tc : Thread nD τ).loc main_arg1)) := ((by host_keeps : W3 m ρ c (Proc.devRef .tc main_v5) = W2 m ρ c (Proc.devRef .tc main_v5))).trans (W2_v5 m ρ c)
theorem W4_v5 (c : Dev nD) : W4 m ρ c (Proc.devRef .tc main_v5) = src (m ((c.tc : Thread nD τ).loc main_arg1)) := (W4_of_ne m ρ c main_v5 (by decide)).trans (W3_v5 m ρ c)
theorem W5_v5 (c : Dev nD) : W5 m ρ c (Proc.devRef .tc main_v5) = src (m ((c.tc : Thread nD τ).loc main_arg1)) := (W5_of_ne m ρ c main_v5 (by decide)).trans (W4_v5 m ρ c)

theorem W1_v6 (c : Dev nD) : W1 m ρ c (Proc.devRef .tc main_v6) = dst (m ((c.tc : Thread nD τ).loc main_arg1)) := by
  dsimp only [W1, hostOps0]
  after_results
  rfl
theorem W2_v6 (c : Dev nD) : W2 m ρ c (Proc.devRef .tc main_v6) = dst (m ((c.tc : Thread nD τ).loc main_arg1)) := (W2_of_ne m ρ c main_v6 (by decide)).trans (W1_v6 m ρ c)
theorem W3_v6 (c : Dev nD) : W3 m ρ c (Proc.devRef .tc main_v6) = dst (m ((c.tc : Thread nD τ).loc main_arg1)) := ((by host_keeps : W3 m ρ c (Proc.devRef .tc main_v6) = W2 m ρ c (Proc.devRef .tc main_v6))).trans (W2_v6 m ρ c)
theorem W4_v6 (c : Dev nD) : W4 m ρ c (Proc.devRef .tc main_v6) = dst (m ((c.tc : Thread nD τ).loc main_arg1)) := (W4_of_ne m ρ c main_v6 (by decide)).trans (W3_v6 m ρ c)
theorem W5_v6 (c : Dev nD) : W5 m ρ c (Proc.devRef .tc main_v6) = dst (m ((c.tc : Thread nD τ).loc main_arg1)) := (W5_of_ne m ρ c main_v6 (by decide)).trans (W4_v6 m ρ c)

set_option maxHeartbeats 4000000 in
theorem W1_v26 (c : Dev nD) : W1 m ρ c (Proc.devRef .tc main_v26) = norm (m ((c.tc : Thread nD τ).loc main_arg1)) := by
  dsimp only [W1, hostOps0]
  after_results_simp
  rfl
theorem W2_v26 (c : Dev nD) : W2 m ρ c (Proc.devRef .tc main_v26) = norm (m ((c.tc : Thread nD τ).loc main_arg1)) := (W2_of_ne m ρ c main_v26 (by decide)).trans (W1_v26 m ρ c)
theorem W3_v26 (c : Dev nD) : W3 m ρ c (Proc.devRef .tc main_v26) = norm (m ((c.tc : Thread nD τ).loc main_arg1)) := ((by host_keeps : W3 m ρ c (Proc.devRef .tc main_v26) = W2 m ρ c (Proc.devRef .tc main_v26))).trans (W2_v26 m ρ c)
theorem W4_v26 (c : Dev nD) : W4 m ρ c (Proc.devRef .tc main_v26) = norm (m ((c.tc : Thread nD τ).loc main_arg1)) := (W4_of_ne m ρ c main_v26 (by decide)).trans (W3_v26 m ρ c)
theorem W5_v26 (c : Dev nD) : W5 m ρ c (Proc.devRef .tc main_v26) = norm (m ((c.tc : Thread nD τ).loc main_arg1)) := (W5_of_ne m ρ c main_v26 (by decide)).trans (W4_v26 m ρ c)

theorem W1_arg0 (c : Dev nD) : W1 m ρ c (Proc.devRef .tc main_arg0) = m ((c.tc : Thread nD τ).loc main_arg0) := (by host_keeps : W1 m ρ c (Proc.devRef .tc main_arg0) = W0 m ρ c (Proc.devRef .tc main_arg0)).trans rfl

theorem W1_arg2 (c : Dev nD) : W1 m ρ c (Proc.devRef .tc main_arg2) = m ((c.tc : Thread nD τ).loc main_arg2) := (by host_keeps : W1 m ρ c (Proc.devRef .tc main_arg2) = W0 m ρ c (Proc.devRef .tc main_arg2)).trans rfl

theorem W1_arg3 (c : Dev nD) : W1 m ρ c (Proc.devRef .tc main_arg3) = m ((c.tc : Thread nD τ).loc main_arg3) := (by host_keeps : W1 m ρ c (Proc.devRef .tc main_arg3) = W0 m ρ c (Proc.devRef .tc main_arg3)).trans rfl
theorem W2_arg3 (c : Dev nD) : W2 m ρ c (Proc.devRef .tc main_arg3) = m ((c.tc : Thread nD τ).loc main_arg3) := (W2_of_ne m ρ c main_arg3 (by decide)).trans (W1_arg3 m ρ c)

theorem W1_arg4 (c : Dev nD) : W1 m ρ c (Proc.devRef .tc main_arg4) = m ((c.tc : Thread nD τ).loc main_arg4) := (by host_keeps : W1 m ρ c (Proc.devRef .tc main_arg4) = W0 m ρ c (Proc.devRef .tc main_arg4)).trans rfl
theorem W2_arg4 (c : Dev nD) : W2 m ρ c (Proc.devRef .tc main_arg4) = m ((c.tc : Thread nD τ).loc main_arg4) := (W2_of_ne m ρ c main_arg4 (by decide)).trans (W1_arg4 m ρ c)
theorem W3_arg4 (c : Dev nD) : W3 m ρ c (Proc.devRef .tc main_arg4) = m ((c.tc : Thread nD τ).loc main_arg4) := ((by host_keeps : W3 m ρ c (Proc.devRef .tc main_arg4) = W2 m ρ c (Proc.devRef .tc main_arg4))).trans (W2_arg4 m ρ c)
theorem W4_arg4 (c : Dev nD) : W4 m ρ c (Proc.devRef .tc main_arg4) = m ((c.tc : Thread nD τ).loc main_arg4) := (W4_of_ne m ρ c main_arg4 (by decide)).trans (W3_arg4 m ρ c)

theorem W1_arg5 (c : Dev nD) : W1 m ρ c (Proc.devRef .tc main_arg5) = m ((c.tc : Thread nD τ).loc main_arg5) := (by host_keeps : W1 m ρ c (Proc.devRef .tc main_arg5) = W0 m ρ c (Proc.devRef .tc main_arg5)).trans rfl
theorem W2_arg5 (c : Dev nD) : W2 m ρ c (Proc.devRef .tc main_arg5) = m ((c.tc : Thread nD τ).loc main_arg5) := (W2_of_ne m ρ c main_arg5 (by decide)).trans (W1_arg5 m ρ c)
theorem W3_arg5 (c : Dev nD) : W3 m ρ c (Proc.devRef .tc main_arg5) = m ((c.tc : Thread nD τ).loc main_arg5) := ((by host_keeps : W3 m ρ c (Proc.devRef .tc main_arg5) = W2 m ρ c (Proc.devRef .tc main_arg5))).trans (W2_arg5 m ρ c)
theorem W4_arg5 (c : Dev nD) : W4 m ρ c (Proc.devRef .tc main_arg5) = m ((c.tc : Thread nD τ).loc main_arg5) := (W4_of_ne m ρ c main_arg5 (by decide)).trans (W3_arg5 m ρ c)
theorem W5_arg5 (c : Dev nD) : W5 m ρ c (Proc.devRef .tc main_arg5) = m ((c.tc : Thread nD τ).loc main_arg5) := (W5_of_ne m ρ c main_arg5 (by decide)).trans (W4_arg5 m ρ c)

theorem W1_arg6 (c : Dev nD) : W1 m ρ c (Proc.devRef .tc main_arg6) = m ((c.tc : Thread nD τ).loc main_arg6) := (by host_keeps : W1 m ρ c (Proc.devRef .tc main_arg6) = W0 m ρ c (Proc.devRef .tc main_arg6)).trans rfl
theorem W2_arg6 (c : Dev nD) : W2 m ρ c (Proc.devRef .tc main_arg6) = m ((c.tc : Thread nD τ).loc main_arg6) := (W2_of_ne m ρ c main_arg6 (by decide)).trans (W1_arg6 m ρ c)
theorem W3_arg6 (c : Dev nD) : W3 m ρ c (Proc.devRef .tc main_arg6) = m ((c.tc : Thread nD τ).loc main_arg6) := ((by host_keeps : W3 m ρ c (Proc.devRef .tc main_arg6) = W2 m ρ c (Proc.devRef .tc main_arg6))).trans (W2_arg6 m ρ c)
theorem W4_arg6 (c : Dev nD) : W4 m ρ c (Proc.devRef .tc main_arg6) = m ((c.tc : Thread nD τ).loc main_arg6) := (W4_of_ne m ρ c main_arg6 (by decide)).trans (W3_arg6 m ρ c)
theorem W5_arg6 (c : Dev nD) : W5 m ρ c (Proc.devRef .tc main_arg6) = m ((c.tc : Thread nD τ).loc main_arg6) := (W5_of_ne m ρ c main_arg6 (by decide)).trans (W4_arg6 m ρ c)
theorem W6_arg6 (c : Dev nD) : W6 m ρ c (Proc.devRef .tc main_arg6) = m ((c.tc : Thread nD τ).loc main_arg6) := ((by host_keeps : W6 m ρ c (Proc.devRef .tc main_arg6) = W5 m ρ c (Proc.devRef .tc main_arg6))).trans (W5_arg6 m ρ c)
theorem W7_arg6 (c : Dev nD) : W7 m ρ c (Proc.devRef .tc main_arg6) = m ((c.tc : Thread nD τ).loc main_arg6) := (W7_of_ne m ρ c main_arg6 (by decide)).trans (W6_arg6 m ρ c)
theorem W8_arg6 (c : Dev nD) : W8 m ρ c (Proc.devRef .tc main_arg6) = m ((c.tc : Thread nD τ).loc main_arg6) := ((by host_keeps : W8 m ρ c (Proc.devRef .tc main_arg6) = W7 m ρ c (Proc.devRef .tc main_arg6))).trans (W7_arg6 m ρ c)

theorem W1_arg7 (c : Dev nD) : W1 m ρ c (Proc.devRef .tc main_arg7) = m ((c.tc : Thread nD τ).loc main_arg7) := (by host_keeps : W1 m ρ c (Proc.devRef .tc main_arg7) = W0 m ρ c (Proc.devRef .tc main_arg7)).trans rfl
theorem W2_arg7 (c : Dev nD) : W2 m ρ c (Proc.devRef .tc main_arg7) = m ((c.tc : Thread nD τ).loc main_arg7) := (W2_of_ne m ρ c main_arg7 (by decide)).trans (W1_arg7 m ρ c)
theorem W3_arg7 (c : Dev nD) : W3 m ρ c (Proc.devRef .tc main_arg7) = m ((c.tc : Thread nD τ).loc main_arg7) := ((by host_keeps : W3 m ρ c (Proc.devRef .tc main_arg7) = W2 m ρ c (Proc.devRef .tc main_arg7))).trans (W2_arg7 m ρ c)
theorem W4_arg7 (c : Dev nD) : W4 m ρ c (Proc.devRef .tc main_arg7) = m ((c.tc : Thread nD τ).loc main_arg7) := (W4_of_ne m ρ c main_arg7 (by decide)).trans (W3_arg7 m ρ c)
theorem W5_arg7 (c : Dev nD) : W5 m ρ c (Proc.devRef .tc main_arg7) = m ((c.tc : Thread nD τ).loc main_arg7) := (W5_of_ne m ρ c main_arg7 (by decide)).trans (W4_arg7 m ρ c)
theorem W6_arg7 (c : Dev nD) : W6 m ρ c (Proc.devRef .tc main_arg7) = m ((c.tc : Thread nD τ).loc main_arg7) := ((by host_keeps : W6 m ρ c (Proc.devRef .tc main_arg7) = W5 m ρ c (Proc.devRef .tc main_arg7))).trans (W5_arg7 m ρ c)
theorem W7_arg7 (c : Dev nD) : W7 m ρ c (Proc.devRef .tc main_arg7) = m ((c.tc : Thread nD τ).loc main_arg7) := (W7_of_ne m ρ c main_arg7 (by decide)).trans (W6_arg7 m ρ c)

/-! ## The stages -/

/-- The first launch leaves the product of the features and the first weight. -/
theorem W2_v27 (c : Dev nD) : W2 m ρ c (Proc.devRef .tc main_v27) = matProd (m ((c.tc : Thread nD τ).loc main_arg0)) (m ((c.tc : Thread nD τ).loc main_arg2)) := by
  refine (W2_arr m ρ c 2).trans ((Cert.KernelIdeal.Proj0.final (V1 m ρ) c).trans ?_)
  show matProd (W1 m ρ c (Proc.devRef .tc main_arg0)) (W1 m ρ c (Proc.devRef .tc main_arg2)) = _
  rw [W1_arg0, W1_arg2]

set_option maxHeartbeats 4000000 in
/-- The host stretch after it aggregates that product over the edges. -/
theorem W3_v40 (c : Dev nD) : W3 m ρ c (Proc.devRef .tc main_v40) = agg (m ((c.tc : Thread nD τ).loc main_arg1)) (matProd (m ((c.tc : Thread nD τ).loc main_arg0)) (m ((c.tc : Thread nD τ).loc main_arg2))) := by
  dsimp only [W3, hostOps1]
  after_results_simp
  rw [W2_v27, W2_v5, W2_v6, W2_v26]
  rfl

/-- and lays the first bias out as a row. -/
theorem W3_v41 (c : Dev nD) : W3 m ρ c (Proc.devRef .tc main_v41) = shapeCast S1x64 (m ((c.tc : Thread nD τ).loc main_arg3)) shapeCasts_S64_S1x64 := by
  dsimp only [W3, hostOps1]
  after_results
  rw [W2_arg3]
  rfl

/-- The second launch leaves the first layer. -/
theorem W4_v42 (c : Dev nD) : W4 m ρ c (Proc.devRef .tc main_v42) = layer (m ((c.tc : Thread nD τ).loc main_arg1)) (m ((c.tc : Thread nD τ).loc main_arg0)) (m ((c.tc : Thread nD τ).loc main_arg2)) (m ((c.tc : Thread nD τ).loc main_arg3)) := by
  refine (W4_arr m ρ c 2).trans ((Cert.KernelIdeal.Act1.final (V3 m ρ) c).trans ?_)
  show biasRelu (W3 m ρ c (Proc.devRef .tc main_v40)) (W3 m ρ c (Proc.devRef .tc main_v41)) = _
  rw [W3_v40, W3_v41]
  rfl

/-- The third launch leaves its product with the second weight. -/
theorem W5_v43 (c : Dev nD) : W5 m ρ c (Proc.devRef .tc main_v43)
    = matProd (layer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) := by
  refine (W5_arr m ρ c 2).trans ((Cert.KernelIdeal.Proj2.final (V4 m ρ) c).trans ?_)
  show matProd (W4 m ρ c (Proc.devRef .tc main_v42)) (W4 m ρ c (Proc.devRef .tc main_arg4)) = _
  rw [W4_v42, W4_arg4]

set_option maxHeartbeats 4000000 in
/-- The host stretch after it aggregates that product over the edges. -/
theorem W6_v56 (c : Dev nD) : W6 m ρ c (Proc.devRef .tc main_v56)
    = agg (m ((c.tc : Thread nD τ).loc main_arg1)) (matProd (layer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4))) := by
  dsimp only [W6, hostOps3]
  after_results_simp
  rw [W5_v43, W5_v5, W5_v6, W5_v26]
  rfl

/-- and lays the second bias out as a row. -/
theorem W6_v57 (c : Dev nD) : W6 m ρ c (Proc.devRef .tc main_v57) = shapeCast S1x64 (m ((c.tc : Thread nD τ).loc main_arg5)) shapeCasts_S64_S1x64 := by
  dsimp only [W6, hostOps3]
  after_results
  rw [W5_arg5]
  rfl

/-- The fourth launch leaves the second layer. -/
theorem W7_v58 (c : Dev nD) : W7 m ρ c (Proc.devRef .tc main_v58)
    = layer (m ((c.tc : Thread nD τ).loc main_arg1)) (layer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) := by
  refine (W7_arr m ρ c 2).trans ((Cert.KernelIdeal.Act3.final (V6 m ρ) c).trans ?_)
  show biasRelu (W6 m ρ c (Proc.devRef .tc main_v56)) (W6 m ρ c (Proc.devRef .tc main_v57)) = _
  rw [W6_v56, W6_v57]
  rfl

/-- The last host stretch keeps it -/
theorem W8_v58 (c : Dev nD) : W8 m ρ c (Proc.devRef .tc main_v58)
    = layer (m ((c.tc : Thread nD τ).loc main_arg1)) (layer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) :=
  (by host_keeps : W8 m ρ c (Proc.devRef .tc main_v58) = W7 m ρ c (Proc.devRef .tc main_v58)).trans (W7_v58 m ρ c)

/-- and lays the head's bias out as a one by one array. -/
theorem W8_v59 (c : Dev nD) : W8 m ρ c (Proc.devRef .tc main_v59) = shapeCast S1x1 (m ((c.tc : Thread nD τ).loc main_arg7)) shapeCasts_S1_S1x1 := by
  dsimp only [W8, hostOps4]
  after_results
  rw [W7_arg7]
  rfl

/-- The last launch leaves the network's value in the result buffer. -/
theorem W9_v60 (c : Dev nD) : W9 m ρ c (Proc.devRef .tc main_v60)
    = out (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W9_arr m ρ c 3).trans ((Cert.KernelIdeal.Head4.final (V8 m ρ) c).trans ?_)
  show score (W8 m ρ c (Proc.devRef .tc main_v58)) (W8 m ρ c (Proc.devRef .tc main_arg6)) (W8 m ρ c (Proc.devRef .tc main_v59)) = _
  rw [W8_v58, W8_arg6, W8_v59]
  rfl

end Cert.KernelIdeal.Chain

end
-- ==== Proof.RefSpec.lean ====
/- The reference's result as a composition of named stages: the graph's normalisation (computed from the edge list
   alone), one layer (project, aggregate over the edges, add the bias, clamp at zero), and the head (project to one
   column, add the bias, the logistic function spelt with exp and a quotient). -/
import proofs.«153258_j19490561589475_1_alg».proof.Proof.Gen.ReferenceIdeal
import Idealize.ShloMosaic.PureOps.Ideal

set_option maxRecDepth 16384

noncomputable section

namespace Cert.ReferenceIdeal.Spec

open Cert.ReferenceIdeal Cert.ReferenceIdeal.Gen Idealize.ShloMosaic Idealize.ShloMosaic.TcCoe Idealize.SL.Sem

variable {F : FTy → Type} [FloatOps F]

/-- The source node of every edge, followed by every node once (its self loop). -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination node of every edge, followed by every node once (its self loop). -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number as an index: a negative one counts from the end. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- One over the square root of a node's degree: the number of edges (and its self loop) that end at it. -/
def dinv (e : (⟨S2x1600000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant (F := F) S_ .f32 0x00000000#32)) (broadcastInDim S1700000x1 ![0] bcast_S1700000_S1700000x1_0 (dst e)) (broadcastInDim S1700000 ![] bcast_S_S1700000 (constant (F := F) S_ .f32 0x3F800000#32)))

/-- An edge's weight: the product of that number at its two ends. -/
def norm (e : (⟨S2x1600000, .i32⟩ : BufTy).Contents (Elt F)) : (⟨S1700000, .f32⟩ : BufTy).Contents (Elt F) :=
  mulf (Host.gather gather_S100000_S1700000x1_S1700000_n_0_n_n_0_1_1 (dinv e) (broadcastInDim S1700000x1 ![0] bcast_S1700000_S1700000x1_0 (wrap (src e)))) (Host.gather gather_S100000_S1700000x1_S1700000_n_0_n_n_0_1_1 (dinv e) (broadcastInDim S1700000x1 ![0] bcast_S1700000_S1700000x1_0 (wrap (dst e))))

/-- The aggregation: every node's row is the sum, over the edges ending at it, of the source node's row times the
    edge's weight. -/
def agg (e : (⟨S2x1600000, .i32⟩ : BufTy).Contents (Elt F)) (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 (dst e)) (mulf (Host.gather gather_S100000x64_S1700000x1_S1700000x64_1_0_n_n_0_1_164 h (broadcastInDim S1700000x1 ![0] bcast_S1700000_S1700000x1_0 (wrap (src e)))) (broadcastInDim S1700000x64 ![0, 1] bcast_S1700000x1_S1700000x64_0_1 (broadcastInDim S1700000x1 ![0] bcast_S1700000_S1700000x1_0 (norm e))))

/-- One layer: the projection aggregated, the bias added along the rows, the negative part cut off. -/
def layer (e : (⟨S2x1600000, .i32⟩ : BufTy).Contents (Elt F)) (x : (⟨S100000x64, .f32⟩ : BufTy).Contents (Elt F))
    (W : (⟨S64x64, .f32⟩ : BufTy).Contents (Elt F)) (b : (⟨S64, .f32⟩ : BufTy).Contents (Elt F)) : (⟨S100000x64, .f32⟩ : BufTy).Contents (Elt F) :=
  maximumf (addf (agg e (Host.dotGeneral dot_S100000x64_S64x64_S100000x64_1_0_0_1_n_n none x W)) (broadcastInDim S100000x64 ![0, 1] bcast_S1x64_S100000x64_0_1 (broadcastInDim S1x64 ![1] bcast_S64_S1x64_1 b))) (broadcastInDim S100000x64 ![] bcast_S_S100000x64 (constant (F := F) S_ .f32 0x00000000#32))

/-- The head: one column of scores, the bias added, the logistic function as 1 / (1 + exp (-y)). -/
def head (h : (⟨S100000x64, .f32⟩ : BufTy).Contents (Elt F)) (w : (⟨S64x1, .f32⟩ : BufTy).Contents (Elt F))
    (b : (⟨S1, .f32⟩ : BufTy).Contents (Elt F)) : (⟨S100000x1, .f32⟩ : BufTy).Contents (Elt F) :=
  Host.divf (broadcastInDim S100000x1 ![] bcast_S_S100000x1 (constant (F := F) S_ .f32 0x3F800000#32)) (addf (broadcastInDim S100000x1 ![] bcast_S_S100000x1 (constant (F := F) S_ .f32 0x3F800000#32)) (Host.exp (Host.negf (addf (Host.dotGeneral dot_S100000x64_S64x1_S100000x1_1_0_0_1_n_n none h w) (broadcastInDim S100000x1 ![0, 1] bcast_S1x1_S100000x1_0_1 (broadcastInDim S1x1 ![1] bcast_S1_S1x1_1 b))))))

end Cert.ReferenceIdeal.Spec

end
-- ==== Proof.RefRun.lean ====
/- The reference's generated run states its result as one composed term of the arguments; that term is the head of
   the second layer of the first layer, stage by stage. -/
import proofs.«153258_j19490561589475_1_alg».proof.Proof.Gen.ReferenceIdeal.Run
import proofs.«153258_j19490561589475_1_alg».proof.Proof.RefSpec

set_option maxRecDepth 16384

noncomputable section

namespace Cert.ReferenceIdeal.Spec

open Cert.ReferenceIdeal Cert.ReferenceIdeal.Gen Idealize.ShloMosaic Idealize.ShloMosaic.TcCoe Idealize.SL.Sem

variable {F : FTy → Type} [FloatOps F]

set_option maxRecDepth 65536 in
/-- The run's result term is the head of the second layer of the first layer of the input. -/
theorem res_eq (m : (ℓ : Loc nD τ sig) → Buf (Elt F) ℓ) (c : Dev nD) :
    Cert.ReferenceIdeal.Value.res_main_v95 (F := F) m c
      = head (layer (m ((c.tc : Thread nD τ).loc main_arg1))
          (layer (m ((c.tc : Thread nD τ).loc main_arg1)) (m ((c.tc : Thread nD τ).loc main_arg0)) (m ((c.tc : Thread nD τ).loc main_arg2)) (m ((c.tc : Thread nD τ).loc main_arg3)))
          (m ((c.tc : Thread nD τ).loc main_arg4)) (m ((c.tc : Thread nD τ).loc main_arg5)))
        (m ((c.tc : Thread nD τ).loc main_arg6)) (m ((c.tc : Thread nD τ).loc main_arg7)) := rfl

end Cert.ReferenceIdeal.Spec

end
-- ==== Proof.Bridge.lean ====
/- The two programs compute one function. Stage by stage: the host's dot_general is the matrix product the kernel's
   launches compute; the aggregation over the edges is the same host operations on both sides; the bias broadcast along
   the rows, added, and clamped at zero is the kernel's entry-by-entry bias and clamp; and the reference's
   1 / (1 + exp (-y)) is the logistic function the head applies. No law beyond these readings is used: sums are never
   reordered and nothing is cancelled, so the inputs' finiteness is not needed. -/
import proofs.«153258_j19490561589475_1_alg».proof.Proof.RefSpec
import proofs.«153258_j19490561589475_1_alg».proof.Proof.KernSpec
import proofs.«153258_j19490561589475_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.ShloMosaic.ValueIdx Cert.MatProd
open Cert.ReferenceIdeal Cert.ReferenceIdeal.Gen

/-- The word of the float one denotes the real number one. -/
theorem one_f32 : Ideal.ofBits .f32 0x3F800000#32 = 1 := by
  simp [Ideal.ofBits, Ideal.ieee, -EReal.coe_mul]; norm_num

/-- The aggregation over the edges is spelt with the same host operations in both programs. -/
theorem agg_eq (e : (⟨S2x1600000, .i32⟩ : BufTy).Contents (Elt Ideal)) (h : FVec Ideal S100000x64 .f32) :
    Cert.ReferenceIdeal.Spec.agg (F := Ideal) e h = Cert.KernelIdeal.Spec.agg e h := rfl

/-- A bias of 64 entries laid out as a row and repeated over the rows reads, at (p, q), its entry q. -/
theorem biasRows_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  refine (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The head's one bias entry laid out one by one and repeated over the rows reads that entry everywhere. -/
theorem biasCol_apply (b : FVec Ideal S1 .f32) (p : Fin 100000) (q : Fin 1) :
    broadcastInDim S100000x1 ![0, 1] bcast_S1x1_S100000x1_0_1 (broadcastInDim S1x1 ![1] bcast_S1_S1x1_1 b) (ix2 p q) = b (ix1 (0 : Fin 1)) := by
  refine (broadcastInDim_apply _ bcast_S1x1_S100000x1_0_1 _ (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])).trans ?_
  exact broadcastInDim_apply _ bcast_S1_S1x1_1 b (ix2 (0 : Fin 1) (0 : Fin 1)) (ix1 (0 : Fin 1)) (fun a => match a with
    | ⟨0, _⟩ => by show 0 = if (1 : Nat) = 1 then 0 else 0; rw [if_pos rfl])

/-- A scalar constant repeated over a 100000 x 64 array reads its word's value everywhere. -/
theorem splat64_apply (w : BitVec 32) (i : S100000x64.Idx) :
    broadcastInDim S100000x64 ![] bcast_S_S100000x64 (constant (F := Ideal) S_ .f32 w) i = Ideal.ofBits .f32 w :=
  broadcastInDim_apply _ bcast_S_S100000x64 (constant (F := Ideal) S_ .f32 w) i ix0 (fun a => a.elim0)

/-- A scalar constant repeated over a 100000 x 1 array reads its word's value everywhere. -/
theorem splat1_apply (w : BitVec 32) (i : S100000x1.Idx) :
    broadcastInDim S100000x1 ![] bcast_S_S100000x1 (constant (F := Ideal) S_ .f32 w) i = Ideal.ofBits .f32 w :=
  broadcastInDim_apply _ bcast_S_S100000x1 (constant (F := Ideal) S_ .f32 w) i ix0 (fun a => a.elim0)

/-- Adding the bias along the rows and clamping at zero, as the reference spells it with broadcasts, is the entry by
    entry bias and clamp. -/
theorem relu_bias_eq (a : FVec Ideal S100000x64 .f32) (b : FVec Ideal S64 .f32) :
    maximumf (addf a (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))
      = Cert.KernelIdeal.Spec.biasRelu a (shapeCast Cert.KernelIdeal.S1x64 b Cert.KernelIdeal.Gen.shapeCasts_S64_S1x64) := by
  funext i
  obtain ⟨p, q, rfl⟩ : ∃ (p : Fin 100000) (q : Fin 64), i = ix2 p q := ⟨i 0, i 1, eq_ix2 i⟩
  show max (a (ix2 p q)
        + broadcastInDim S100000x64 ![0, 1] bcast_S1x64_S100000x64_0_1 (broadcastInDim S1x64 ![1] bcast_S64_S1x64_1 b) (ix2 p q))
        (broadcastInDim S100000x64 ![] bcast_S_S100000x64 (constant (F := Ideal) S_ .f32 0x00000000#32) (ix2 p q))
      = max (a (ix2 p q)
        + shapeCast (⟨2, ![1, 64]⟩ : Shape) b Cert.KernelIdeal.Gen.shapeCasts_S64_S1x64 (ix2 (0 : Fin 1) q))
        (Ideal.ofBits .f32 0x00000000#32)
  rw [biasRows_apply, splat64_apply, shapeCast_a_1a_apply]

/-- One layer of the reference is one layer of the kernel program. -/
theorem layer_eq (e : (⟨S2x1600000, .i32⟩ : BufTy).Contents (Elt Ideal)) (x : FVec Ideal S100000x64 .f32)
    (W : FVec Ideal S64x64 .f32) (b : FVec Ideal S64 .f32) :
    Cert.ReferenceIdeal.Spec.layer (F := Ideal) e x W b = Cert.KernelIdeal.Spec.layer e x W b := by
  have hd : Host.dotGeneral dot_S100000x64_S64x64_S100000x64_1_0_0_1_n_n none x W = matProd x W :=
    hostDot_eq dot_S100000x64_S64x64_S100000x64_1_0_0_1_n_n.wf none x W
  unfold Cert.ReferenceIdeal.Spec.layer Cert.KernelIdeal.Spec.layer
  rw [hd, agg_eq]
  exact relu_bias_eq _ b

/-- The reference's head is the kernel program's score. -/
theorem head_eq (h : FVec Ideal S100000x64 .f32) (w : FVec Ideal S64x1 .f32) (b : FVec Ideal S1 .f32) :
    Cert.ReferenceIdeal.Spec.head (F := Ideal) h w b
      = Cert.KernelIdeal.Spec.score h w (shapeCast (⟨2, ![1, 1]⟩ : Shape) b Cert.KernelIdeal.Gen.shapeCasts_S1_S1x1) := by
  unfold Cert.ReferenceIdeal.Spec.head Cert.KernelIdeal.Spec.score
  rw [show Host.dotGeneral dot_S100000x64_S64x1_S100000x1_1_0_0_1_n_n none h w = matProd h w
        from hostDot_eq dot_S100000x64_S64x1_S100000x1_1_0_0_1_n_n.wf none h w]
  funext i
  obtain ⟨p, q, rfl⟩ : ∃ (p : Fin 100000) (q : Fin 1), i = ix2 p q := ⟨i 0, i 1, eq_ix2 i⟩
  show Ideal.div (broadcastInDim S100000x1 ![] bcast_S_S100000x1 (constant (F := Ideal) S_ .f32 0x3F800000#32) (ix2 p q))
        (broadcastInDim S100000x1 ![] bcast_S_S100000x1 (constant (F := Ideal) S_ .f32 0x3F800000#32) (ix2 p q)
          + Ideal.exp (-(matProd h w (ix2 p q)
            + broadcastInDim S100000x1 ![0, 1] bcast_S1x1_S100000x1_0_1 (broadcastInDim S1x1 ![1] bcast_S1_S1x1_1 b) (ix2 p q))))
      = Ideal.logistic (matProd h w (ix2 p q)
          + shapeCast (⟨2, ![1, 1]⟩ : Shape) b Cert.KernelIdeal.Gen.shapeCasts_S1_S1x1 (ix2 (0 : Fin 1) (0 : Fin 1)))
  rw [splat1_apply, one_f32, biasCol_apply, shapeCast_a_1a_apply]
  rfl

/-- The reference's network is the kernel program's. -/
theorem out_eq (e : (⟨S2x1600000, .i32⟩ : BufTy).Contents (Elt Ideal)) (x : FVec Ideal S100000x64 .f32)
    (W1 : FVec Ideal S64x64 .f32) (b1 : FVec Ideal S64 .f32) (W2 : FVec Ideal S64x64 .f32) (b2 : FVec Ideal S64 .f32)
    (Wfc : FVec Ideal S64x1 .f32) (bfc : FVec Ideal S1 .f32) :
    Cert.ReferenceIdeal.Spec.head (F := Ideal)
        (Cert.ReferenceIdeal.Spec.layer e (Cert.ReferenceIdeal.Spec.layer e x W1 b1) W2 b2) Wfc bfc
      = Cert.KernelIdeal.Spec.out e x W1 b1 W2 b2 Wfc bfc := by
  rw [layer_eq, layer_eq, head_eq]
  rfl

end Cert.Bridge

end
-- ==== Proof.lean ====
/- Two graph-convolution layers and a logistic head over 100000 nodes and 1600000 edges (plus one self loop per node).
   The kernel program computes the three matrix products and the two bias-and-clamp steps in five launches tiled over
   blocks of 2000 rows, and everything that depends on the edge list (degrees, edge weights, the gather of source rows
   and the scatter-add into destination rows) by host operations; the reference computes all of it by host operations.
   On the extended reals both are the same function of the arguments:
     layer(h) = max(A (h W) + b, 0),   result = logistic(layer2(layer1(x)) Wfc + bfc),
   with A the edge aggregation. The kernel side is read launch by launch (a row block of a product is the product of
   the row block; bias and clamp act entry by entry) and boundary by boundary through the run; the reference side is
   its run's composed term; the two are joined stage by stage. Sums keep their order and nothing is cancelled, so the
   precondition is never opened. -/
import proofs.«153258_j19490561589475_1_alg».proof.Defs
import proofs.«153258_j19490561589475_1_alg».proof.Proof.Gen.Kernel
import proofs.«153258_j19490561589475_1_alg».proof.Proof.Gen.Kernel.Frame
import proofs.«153258_j19490561589475_1_alg».proof.Proof.Gen.KernelIdeal
import proofs.«153258_j19490561589475_1_alg».proof.Proof.Gen.KernelIdeal.Frame
import proofs.«153258_j19490561589475_1_alg».proof.Proof.Gen.ReferenceIdeal
import proofs.«153258_j19490561589475_1_alg».proof.Proof.Gen.ReferenceIdeal.Run
import proofs.«153258_j19490561589475_1_alg».proof.Proof.Gen.Pre_finite_inputs
import proofs.«153258_j19490561589475_1_alg».proof.Proof.KernelRun
import proofs.«153258_j19490561589475_1_alg».proof.Proof.KernelValue
import proofs.«153258_j19490561589475_1_alg».proof.Proof.RefRun
import proofs.«153258_j19490561589475_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- The idealized program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's value of the arguments in their result buffers. -/
theorem algebraic : Cert.algebraic_KernelIdeal_ReferenceIdeal := by
  intro m ρ m' ρ' _ hagree
  refine ⟨fun c => Cert.KernelIdeal.Spec.out (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.W9_v60 m ρ c), (h c).2⟩)
      (Cert.KernelIdeal.Out.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Spec.res_eq, h0, h1, h2, h3, h4, h5, h6, h7]
    exact Cert.Bridge.out_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
